-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x1000 : Shape := ⟨2, ![16384, 1000]⟩
abbrev S16384x128 : Shape := ⟨2, ![16384, 128]⟩
abbrev S1000x128 : Shape := ⟨2, ![1000, 128]⟩
abbrev S_ : Shape := ⟨0, ![]⟩

class Facts : Prop where
  bcast_S_S16384x1000 : S_.BroadcastsInDim S16384x1000 (![] : Fin 0 → Fin S16384x1000.rank)
  reducesTo_S16384x1000_S_d0_1 : S16384x1000.ReducesTo [0, 1] S_
  h_S_ : 0 < S_.numel
  bcast_S_S16384x128 : S_.BroadcastsInDim S16384x128 (![] : Fin 0 → Fin S16384x128.rank)
  reducesTo_S16384x128_S_d0_1 : S16384x128.ReducesTo [0, 1] S_
  bcast_S_S1000x128 : S_.BroadcastsInDim S1000x128 (![] : Fin 0 → Fin S1000x128.rank)
  reducesTo_S1000x128_S_d0_1 : S1000x128.ReducesTo [0, 1] S_

variable [Facts]

def fn {F : FTy → Type} [FloatOps F] (main_arg0 : FVec F S16384x1000 .f32) (main_arg1 : FVec F S16384x128 .f32) (main_arg2 : FVec F S1000x128 .f32) : IVec S_ 1 :=
  let main_v0 : FVec F S16384x1000 .f32 := Host.absf main_arg0
  let main_cst : FVec F S_ .f32 := constant S_ .f32 0x7F800000#32
  let main_v1 : FVec F S16384x1000 .f32 := broadcastInDim S16384x1000 ![] bcast_S_S16384x1000 main_cst
  let main_v2 : IVec S16384x1000 1 := cmpf .olt main_v0 main_v1
  let main_c : IVec S_ 1 := constantI S_ 1 1#1
  let main_v3 : IVec S_ 1 := (fun x v => Host.reduce IntOp.andi x v reducesTo_S16384x1000_S_d0_1 h_S_) main_v2 main_c
  let main_v4 : FVec F S16384x128 .f32 := Host.absf main_arg1
  let main_cst_0 : FVec F S_ .f32 := constant S_ .f32 0x7F800000#32
  let main_v5 : FVec F S16384x128 .f32 := broadcastInDim S16384x128 ![] bcast_S_S16384x128 main_cst_0
  let main_v6 : IVec S16384x128 1 := cmpf .olt main_v4 main_v5
  let main_c_1 : IVec S_ 1 := constantI S_ 1 1#1
  let main_v7 : IVec S_ 1 := (fun x v => Host.reduce IntOp.andi x v reducesTo_S16384x128_S_d0_1 h_S_) main_v6 main_c_1
  let main_v8 : IVec S_ 1 := andi main_v3 main_v7
  let main_v9 : FVec F S1000x128 .f32 := Host.absf main_arg2
  let main_cst_2 : FVec F S_ .f32 := constant S_ .f32 0x7F800000#32
  let main_v10 : FVec F S1000x128 .f32 := broadcastInDim S1000x128 ![] bcast_S_S1000x128 main_cst_2
  let main_v11 : IVec S1000x128 1 := cmpf .olt main_v9 main_v10
  let main_c_3 : IVec S_ 1 := constantI S_ 1 1#1
  let main_v12 : IVec S_ 1 := (fun x v => Host.reduce IntOp.andi x v reducesTo_S1000x128_S_d0_1 h_S_) main_v11 main_c_3
  let main_v13 : IVec S_ 1 := andi main_v8 main_v12
  main_v13
-- ==== Kernel.lean ====
abbrev S16384x1000 : Shape := ⟨2, ![16384, 1000]⟩
abbrev S16384x128 : Shape := ⟨2, ![16384, 128]⟩
abbrev S1000x128 : Shape := ⟨2, ![1000, 128]⟩
abbrev S128x128 : Shape := ⟨2, ![128, 128]⟩
abbrev S2048x1000 : Shape := ⟨2, ![2048, 1000]⟩
abbrev S2048x128 : Shape := ⟨2, ![2048, 128]⟩
abbrev S16x128 : Shape := ⟨2, ![16, 128]⟩
abbrev S16x128x128 : Shape := ⟨3, ![16, 128, 128]⟩
abbrev S16384x1 : Shape := ⟨2, ![16384, 1]⟩

abbrev nBuf : Space → Nat
  | .hbm => 5
  | .vmem => 7
  | .smem => 0
  | _ => 0

abbrev bufTy : (tb : Table) → Fin (tcTables nBuf tb) → BufTy
  | .hbm, ⟨0, _⟩ => ⟨S16384x1000, .f32⟩
  | .hbm, ⟨1, _⟩ => ⟨S16384x128, .f32⟩
  | .hbm, ⟨2, _⟩ => ⟨S1000x128, .f32⟩
  | .hbm, ⟨3, _⟩ => ⟨S128x128, .f32⟩
  | .hbm, ⟨4, _⟩ => ⟨S16384x1, .f32⟩
  | .local _ .vmem, ⟨0, _⟩ => ⟨S2048x1000, .f32⟩
  | .local _ .vmem, ⟨1, _⟩ => ⟨S2048x1000, .f32⟩
  | .local _ .vmem, ⟨2, _⟩ => ⟨S2048x128, .f32⟩
  | .local _ .vmem, ⟨3, _⟩ => ⟨S2048x128, .f32⟩
  | .local _ .vmem, ⟨4, _⟩ => ⟨S1000x128, .f32⟩
  | .local _ .vmem, ⟨5, _⟩ => ⟨S16x128, .f32⟩
  | .local _ .vmem, ⟨6, _⟩ => ⟨S16x128, .f32⟩
  | _, _ => ⟨S16384x1000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x1000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1000x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S16x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  inb_S2048x1000_S2048x1000_0_0 : ∀ a, (![0, 0] : Fin 2 → Nat) a + S2048x1000.size a ≤ S2048x1000.size a
  h_S2048x1000 : 0 < S2048x1000.numel
  bitsLt_bf16_f32 : FTy.bits .bf16 < FTy.bits .f32
  inb_S1000x128_S1000x128_0_0 : ∀ a, (![0, 0] : Fin 2 → Nat) a + S1000x128.size a ≤ S1000x128.size a
  h_S1000x128 : 0 < S1000x128.numel
  inb_S2048x128_S2048x128_0_0 : ∀ a, (![0, 0] : Fin 2 → Nat) a + S2048x128.size a ≤ S2048x128.size a
  h_S2048x128 : 0 < S2048x128.numel
  shapeCasts_S2048x128_S16x128x128 : S2048x128.ShapeCasts S16x128x128
  reduces_S16x128x128_S16x128 : S16x128x128.Reduces [2] S16x128
  inb_S16x128_S16x128_0_0 : ∀ a, (![0, 0] : Fin 2 → Nat) a + S16x128.size a ≤ S16x128.size a
  h_S16x128 : 0 < S16x128.numel
  shapeCasts_S128x128_S16384x1 : S128x128.ShapeCasts S16384x1
  dot_S2048x1000_S1000x128_S2048x128_1_0_0_1_n_n_wf : DotDims.WF S2048x1000 S1000x128 S2048x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x1000.size a ≤ S16384x1000.size a
  hwx0_0 : ∀ i : grid0.Coords, EltTy.bits .f32 = 32 ∨ (Rect.block (s := S16384x1000) S2048x1000.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x128.size a ≤ S16384x128.size a
  hwx0_1 : ∀ i : grid0.Coords, EltTy.bits .f32 = 32 ∨ (Rect.block (s := S16384x128) S2048x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1000x128.size a ≤ S1000x128.size a
  hwx0_2 : ∀ i : grid0.Coords, EltTy.bits .f32 = 32 ∨ (Rect.block (s := S1000x128) S1000x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S16x128.size a ≤ S128x128.size a
  hwx0_3 : ∀ i : grid0.Coords, EltTy.bits .f32 = 32 ∨ (Rect.block (s := S128x128) S16x128.size (cc0_transform_3 i) (hinb0_3 i)).WholeWords (EltTy.packing .f32)

variable [Facts₀]

def dot_S2048x1000_S1000x128_S2048x128_1_0_0_1_n_n : DotDims S2048x1000 S1000x128 S2048x128 where
  lhsContracting := [1]
  rhsContracting := [0]
  lhsNonContracting := [0]
  rhsNonContracting := [1]
  lhsBatch := []
  rhsBatch := []
  wf := dot_S2048x1000_S1000x128_S2048x128_1_0_0_1_n_n_wf

abbrev win0_0 : Pipeline.Window sig grid0 :=
  Pipeline.Window.ofSpec (Memref.whole main_arg0) S2048x1000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2048x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1000x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S16x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S16384x1000 : Shape := ⟨2, ![16384, 1000]⟩
abbrev S16384x128 : Shape := ⟨2, ![16384, 128]⟩
abbrev S1000x128 : Shape := ⟨2, ![1000, 128]⟩
abbrev S_ : Shape := ⟨0, ![]⟩
abbrev S16384 : Shape := ⟨1, ![16384]⟩
abbrev S16384x1 : Shape := ⟨2, ![16384, 1]⟩

abbrev nBuf : Space → Nat
  | .hbm => 8
  | .vmem => 0
  | .smem => 0
  | _ => 0

abbrev bufTy : (tb : Table) → Fin (tcTables nBuf tb) → BufTy
  | .hbm, ⟨0, _⟩ => ⟨S16384x1000, .f32⟩
  | .hbm, ⟨1, _⟩ => ⟨S16384x128, .f32⟩
  | .hbm, ⟨2, _⟩ => ⟨S1000x128, .f32⟩
  | .hbm, ⟨3, _⟩ => ⟨S16384x128, .f32⟩
  | .hbm, ⟨4, _⟩ => ⟨S16384x128, .f32⟩
  | .hbm, ⟨5, _⟩ => ⟨S_, .f32⟩
  | .hbm, ⟨6, _⟩ => ⟨S16384, .f32⟩
  | .hbm, ⟨7, _⟩ => ⟨S16384x1, .f32⟩
  | _, _ => ⟨S16384x1000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩

abbrev nD : Nat := 1
abbrev τ : Topo := Topo.v7x

variable {F : FTy → Type} [FloatOps F]

class Facts₀ : Prop where
  reducesTo_S16384x128_S16384_d1 : S16384x128.ReducesTo [1] S16384
  h_S_ : 0 < S_.numel
  bcast_S16384_S16384x1_0 : S16384.BroadcastsInDim S16384x1 (![0] : Fin 1 → Fin S16384x1.rank)
  dot_S16384x1000_S1000x128_S16384x128_1_0_0_1_n_n_wf : DotDims.WF S16384x1000 S1000x128 S16384x128 [1] [0] [0] [1] [] []

variable [Facts₀]

def dot_S16384x1000_S1000x128_S16384x128_1_0_0_1_n_n : DotDims S16384x1000 S1000x128 S16384x128 where
  lhsContracting := [1]
  rhsContracting := [0]
  lhsNonContracting := [0]
  rhsNonContracting := [1]
  lhsBatch := []
  rhsBatch := []
  wf := dot_S16384x1000_S1000x128_S16384x128_1_0_0_1_n_n_wf

class Facts : Prop extends Facts₀ where

variable [Facts]
-- ==== Proof.Spec.lean ====
/-
  The action-value lookup as one function of the three argument arrays, over the extended reals.

  For a batch row `r` the table row is `q r c = ∑ k, state[r, k] * values[k, c]` (one product of a state row with a
  column of the value table), and the row's result is `∑ c, action[r, c] * q r c`. The result array [16384, 1] holds
  that number at `(r, 0)`; the compact [128, 128] array the kernel's region writes holds it at `(r / 128, r % 128)`,
  i.e. entry `(a, b)` is row `128 a + b`.
-/
import Idealize.ShloMosaic.PureOps.Ideal
import Idealize.ShloMosaic.Lib.ValueIdx

noncomputable section

namespace ActionValue

open Idealize.ShloMosaic Idealize.ShloMosaic.ValueIdx

/-- Entry `c` of the table row of batch row `r`: the state row times column `c` of the value table. -/
def qEntry (state : FVec Ideal ⟨2, ![16384, 1000]⟩ .f32) (values : FVec Ideal ⟨2, ![1000, 128]⟩ .f32)
    (r : Fin 16384) (c : Fin 128) : EReal :=
  ∑ k : Fin 1000, state (ix2 r k) * values (ix2 k c)

/-- The value of batch row `r`: its action row against its table row. -/
def rowValue (state : FVec Ideal ⟨2, ![16384, 1000]⟩ .f32) (action : FVec Ideal ⟨2, ![16384, 128]⟩ .f32)
    (values : FVec Ideal ⟨2, ![1000, 128]⟩ .f32) (r : Fin 16384) : EReal :=
  ∑ c : Fin 128, action (ix2 r c) * qEntry state values r c

/-- The result column: row `r`'s value at `(r, 0)`. -/
def column (state : FVec Ideal ⟨2, ![16384, 1000]⟩ .f32) (action : FVec Ideal ⟨2, ![16384, 128]⟩ .f32)
    (values : FVec Ideal ⟨2, ![1000, 128]⟩ .f32) : FVec Ideal ⟨2, ![16384, 1]⟩ .f32 :=
  fun i => rowValue state action values (i 0)

/-- Row `128 a + b` of the batch, for an entry `(a, b)` of the compact square. -/
def rowOf (a b : Fin 128) : Fin 16384 := ⟨a.val * 128 + b.val, by have := a.isLt; have := b.isLt; omega⟩

/-- The same numbers laid out 128 to a line: entry `(a, b)` is row `128 a + b`. -/
def square (state : FVec Ideal ⟨2, ![16384, 1000]⟩ .f32) (action : FVec Ideal ⟨2, ![16384, 128]⟩ .f32)
    (values : FVec Ideal ⟨2, ![1000, 128]⟩ .f32) : FVec Ideal ⟨2, ![128, 128]⟩ .f32 :=
  fun j => rowValue state action values (rowOf (j 0) (j 1))

/-- Reading the square row-major as a column gives the column: position `r` of the column is entry
    `(r / 128, r % 128)` of the square, whose row is `r` again. -/
theorem column_eq_square (state : FVec Ideal ⟨2, ![16384, 1000]⟩ .f32) (action : FVec Ideal ⟨2, ![16384, 128]⟩ .f32)
    (values : FVec Ideal ⟨2, ![1000, 128]⟩ .f32) (i : (⟨2, ![16384, 1]⟩ : Shape).Idx) (j : (⟨2, ![128, 128]⟩ : Shape).Idx)
    (h : (j 0).val * 128 + (j 1).val = (i 0).val) :
    square state action values j = column state action values i := by
  unfold square column
  exact congrArg _ (Fin.ext h)

end ActionValue

end
-- ==== Proof.RefValue.lean ====
/-
  The reference computes the column of row values: its dot product gives the table row of every batch row, the
  elementwise product and the sum over the 128 action columns give the row's value, and the final broadcast puts
  it at `(r, 0)`. Read one operation at a time, at an index, this is `ActionValue.column` term for term; the only
  arithmetic is that the sum starts from the zero word.
-/
import proofs.«170311_g61091614818686_cont_9to1c4b_579_11_alg».proof.Proof.Gen.ReferenceIdeal.Read
import proofs.«170311_g61091614818686_cont_9to1c4b_579_11_alg».proof.Proof.Spec

noncomputable section

namespace Cert.ReferenceIdeal.RefValue

open Cert.ReferenceIdeal Cert.ReferenceIdeal.Gen Cert.ReferenceIdeal.Read
open Idealize.ShloMosaic Idealize.ShloMosaic.ValueIdx

/-- The sum over the action columns of row `i 0` reads the product array along that row. -/
theorem idx_row (i : S16384x1.Idx) (k : Fin 128) : idx_main_v2 (idx_main_v3 i) k = ix2 (i 0) k :=
  funext fun a => Fin.ext (by match a with | ⟨0, _⟩ => rfl | ⟨1, _⟩ => rfl)

/-- Entry `(r, c)` of the dot product reads the state along row `r` … -/
theorem lidx_row (r : Fin 16384) (c : Fin 128) (k : Fin 1000) : lidx_main_v0 (ix2 r c) k = ix2 r k :=
  funext fun a => Fin.ext (by match a with | ⟨0, _⟩ => rfl | ⟨1, _⟩ => rfl)

/-- … and the value table down column `c`. -/
theorem ridx_row (r : Fin 16384) (c : Fin 128) (k : Fin 1000) : ridx_main_v0 (ix2 r c) k = ix2 k c :=
  funext fun a => Fin.ext (by match a with | ⟨0, _⟩ => rfl | ⟨1, _⟩ => rfl)

/-- The reference's result is the column of row values. -/
theorem ref_eq (x0 : (⟨S16384x1000, .f32⟩ : BufTy).Contents (Elt Ideal)) (x1 : (⟨S16384x128, .f32⟩ : BufTy).Contents (Elt Ideal))
    (x2 : (⟨S1000x128, .f32⟩ : BufTy).Contents (Elt Ideal)) :
    val_main_v3 (F := Ideal) x0 x1 x2 = ActionValue.column x0 x1 x2 := by
  funext i
  rw [val_main_v3_apply, val_main_v2_apply]
  show (Ideal.ofBits .f32 0x00000000#32 : EReal) + _ = _
  rw [Ideal.ofBits_zero_f32, zero_add]
  unfold ActionValue.column ActionValue.rowValue ActionValue.qEntry
  refine Finset.sum_congr rfl fun c _ => ?_
  rw [idx_row]
  refine (val_main_v1_apply (F := Ideal) x0 x1 x2 (ix2 (i 0) c)).trans ?_
  refine congrArg (fun z : EReal => (x1 (ix2 (i 0) c) : EReal) * z) ?_
  rw [val_main_v0_apply]
  refine Finset.sum_congr rfl fun k _ => ?_
  exact congrArg₂ (fun u w : EReal => u * w) (congrArg x0 (lidx_row (i 0) c k)) (congrArg x2 (ridx_row (i 0) c k))

end Cert.ReferenceIdeal.RefValue

end
-- ==== Proof.Body.lean ====
/-
  What the kernel body stores for one block of 2048 batch rows, entry by entry.

  The body multiplies the block's 2048 state rows into the value table (a product into a zero accumulator, so entry
  `(r, c)` is `∑ k, state[r, k] * values[k, c]`; the narrowing of both operands is the identity on extended reals),
  multiplies by the action block entry by entry, regroups the 2048 rows as 16 lines of 128 rows, and sums each row's
  128 products. So entry `(a, b)` of the stored [16, 128] tile is the value of block row `128 a + b`.
-/
import proofs.«170311_g61091614818686_cont_9to1c4b_579_11_alg».proof.Proof.Gen.KernelIdeal.Skeleton
import Idealize.ShloMosaic.Lib.ValueIdx
import Idealize.ShloMosaic.Lib.Pipeline.Value
import Idealize.ShloMosaic.PureOps.Ideal.Laws

noncomputable section

namespace Cert.KernelIdeal.Body

open Cert.KernelIdeal Cert.KernelIdeal.Gen
open Idealize.ShloMosaic Idealize.ShloMosaic.ValueIdx

/-- Row `128 a + b` of a block of 2048 rows, for an entry `(a, b)` of its [16, 128] tile. -/
def blockRow (a : Fin 16) (b : Fin 128) : Fin 2048 := ⟨a.val * 128 + b.val, by have := a.isLt; have := b.isLt; omega⟩

/-! The product's operand indices, axis by axis: the left operand is read at (output row, contracted index), the
    right at (contracted index, output column). -/

theorem lhs_axis0 (i : S2048x128.Idx) (q : dot_S2048x1000_S1000x128_S2048x128_1_0_0_1_n_n.contr.Idx) :
    (dot_S2048x1000_S1000x128_S2048x128_1_0_0_1_n_n.lhsIdx i q 0).val = (i 0).val := by
  unfold DotDims.lhsIdx
  rw [dif_neg (show ¬(0 : Fin S2048x1000.rank) ∈ dot_S2048x1000_S1000x128_S2048x128_1_0_0_1_n_n.lhsBatch by decide), dif_pos (show (0 : Fin S2048x1000.rank) ∈ dot_S2048x1000_S1000x128_S2048x128_1_0_0_1_n_n.lhsNonContracting by decide)]
  rfl
theorem lhs_axis1 (i : S2048x128.Idx) (q : dot_S2048x1000_S1000x128_S2048x128_1_0_0_1_n_n.contr.Idx) :
    (dot_S2048x1000_S1000x128_S2048x128_1_0_0_1_n_n.lhsIdx i q 1).val = (q ⟨0, by decide⟩).val :=
  dot_S2048x1000_S1000x128_S2048x128_1_0_0_1_n_n.lhsIdx_val_of_single rfl i q
theorem rhs_axis0 (i : S2048x128.Idx) (q : dot_S2048x1000_S1000x128_S2048x128_1_0_0_1_n_n.contr.Idx) :
    (dot_S2048x1000_S1000x128_S2048x128_1_0_0_1_n_n.rhsIdx i q 0).val = (q ⟨0, by decide⟩).val :=
  dot_S2048x1000_S1000x128_S2048x128_1_0_0_1_n_n.rhsIdx_val_of_single rfl i q
theorem rhs_axis1 (i : S2048x128.Idx) (q : dot_S2048x1000_S1000x128_S2048x128_1_0_0_1_n_n.contr.Idx) :
    (dot_S2048x1000_S1000x128_S2048x128_1_0_0_1_n_n.rhsIdx i q 1).val = (i 1).val := by
  unfold DotDims.rhsIdx
  rw [dif_neg (show ¬(1 : Fin S1000x128.rank) ∈ dot_S2048x1000_S1000x128_S2048x128_1_0_0_1_n_n.rhsBatch by decide), dif_pos (show (1 : Fin S1000x128.rank) ∈ dot_S2048x1000_S1000x128_S2048x128_1_0_0_1_n_n.rhsNonContracting by decide)]
  rfl

/-- The block's table rows: entry `(r, c)` of the product into the zero accumulator is the state row `r` against
    column `c` of the value table. -/
theorem product_apply (s : FVec Ideal S2048x1000 .bf16) (v : FVec Ideal S1000x128 .bf16) (r : Fin 2048) (c : Fin 128) :
    matmul dot_S2048x1000_S1000x128_S2048x128_1_0_0_1_n_n none s v (constant (F := Ideal) S2048x128 .f32 0x00000000#32) (ix2 r c)
      = ∑ k : Fin 1000, s (ix2 r k) * v (ix2 k c) := by
  simp only [matmul]
  rw [Ideal.matmul_constant_zero_apply, ← Equiv.sum_comp (contrEquiv1 dot_S2048x1000_S1000x128_S2048x128_1_0_0_1_n_n 1000 rfl rfl).symm]
  refine Finset.sum_congr rfl fun k _ => ?_
  have hk := contrEquiv1_symm_val dot_S2048x1000_S1000x128_S2048x128_1_0_0_1_n_n 1000 rfl rfl k
  have el : dot_S2048x1000_S1000x128_S2048x128_1_0_0_1_n_n.lhsIdx (ix2 r c) ((contrEquiv1 dot_S2048x1000_S1000x128_S2048x128_1_0_0_1_n_n 1000 rfl rfl).symm k) = ix2 r k := funext fun a => Fin.ext (by
    match a with
    | ⟨0, _⟩ => exact lhs_axis0 _ _
    | ⟨1, _⟩ => exact (lhs_axis1 _ _).trans hk)
  have er : dot_S2048x1000_S1000x128_S2048x128_1_0_0_1_n_n.rhsIdx (ix2 r c) ((contrEquiv1 dot_S2048x1000_S1000x128_S2048x128_1_0_0_1_n_n 1000 rfl rfl).symm k) = ix2 k c := funext fun a => Fin.ext (by
    match a with
    | ⟨0, _⟩ => exact (rhs_axis0 _ _).trans hk
    | ⟨1, _⟩ => exact rhs_axis1 _ _)
  rw [el, er]

/-- Regrouping 2048 rows as 16 lines of 128: entry `(a, b, c)` of the regrouped array is entry `(128 a + b, c)`. -/
theorem regroup_apply (x : FVec Ideal S2048x128 .f32) (a : Fin 16) (b c : Fin 128) :
    shapeCast S16x128x128 x shapeCasts_S2048x128_S16x128x128 (ix3 a b c) = x (ix2 (blockRow a b) c) := by
  refine shapeCast_apply x _ (ix3 a b c) (ix2 (blockRow a b) c) ?_
  rw [Shape.rowMajor_val_two, Shape.rowMajor_val_three]
  rfl

/-- The sum over the last axis of a [16, 128, 128] array, at `(a, b)`. -/
theorem lineSum_apply (y : FVec Ideal S16x128x128 .f32) (hacc : (0x00000000#32 : BitVec 32) = 0x00000000#32) (a : Fin 16) (b : Fin 128) :
    multiReduction .add [2] S16x128 y 0x00000000#32 reduces_S16x128x128_S16x128 (.inl rfl) hacc (ix2 a b)
      = ∑ c : Fin 128, y (ix3 a b c) := by
  refine (Ideal.multiReduction_add_single y 0x00000000#32 reduces_S16x128x128_S16x128 (.inl rfl) hacc (ix2 a b)).trans ?_
  refine Finset.sum_congr rfl fun c _ => ?_
  exact congrArg y (funext fun d => Fin.ext (by match d with | ⟨0, _⟩ => rfl | ⟨1, _⟩ => rfl | ⟨2, _⟩ => rfl))

/-- THE STORED TILE: entry `(a, b)` is the action row `128 a + b` of the block against that row's table row. -/
theorem tile_apply (s : Vec Ideal S2048x1000 .f32) (v : Vec Ideal S1000x128 .f32) (act : Vec Ideal S2048x128 .f32)
    (a : Fin 16) (b : Fin 128) :
    k0_pay1 (F := Ideal) s v act (ix2 a b)
      = ∑ c : Fin 128, act (ix2 (blockRow a b) c) * ∑ k : Fin 1000, s (ix2 (blockRow a b) k) * v (ix2 k c) := by
  unfold k0_pay1
  refine (lineSum_apply _ rfl a b).trans ?_
  refine Finset.sum_congr rfl fun c _ => ?_
  refine (regroup_apply _ a b c).trans ?_
  refine (mulf_apply _ _ _).trans ?_
  refine congrArg (act (ix2 (blockRow a b) c) * ·) ?_
  exact product_apply _ _ (blockRow a b) c

end Cert.KernelIdeal.Body

end
-- ==== Proof.Blocks.lean ====
/-
  From the tiles the eight grid points write back to the whole compact square.

  Grid point `t` works on batch rows `2048 t … 2048 t + 2047`: its state and action blocks are those rows of the
  two arrays, its value-table block is the whole table, and the [16, 128] tile it writes back is lines
  `16 t … 16 t + 15` of the [128, 128] square. Entry `(a, b)` of the tile is the value of block row `128 a + b`,
  i.e. of batch row `2048 t + 128 a + b = 128 (16 t + a) + b`, which is what the square holds at `(16 t + a, b)`.
  The eight tiles cover the square, so after the region the array is the square.
-/
import proofs.«170311_g61091614818686_cont_9to1c4b_579_11_alg».proof.Proof.Gen.KernelIdeal.Frame
import proofs.«170311_g61091614818686_cont_9to1c4b_579_11_alg».proof.Proof.Body
import proofs.«170311_g61091614818686_cont_9to1c4b_579_11_alg».proof.Proof.Spec
import Idealize.ShloMosaic.Lib.Pipeline.Value

noncomputable section

namespace Cert.KernelIdeal.Blocks

open Cert.KernelIdeal Cert.KernelIdeal.Gen Cert.KernelIdeal.Body
open Idealize.ShloMosaic Idealize.ShloMosaic.TcCoe Idealize.SL.Sem Idealize.ShloMosaic.ValueIdx
open Idealize.ShloMosaic.Pipeline (Dat)

/-- A tile against the square, with everything the point contributes as hypotheses: if the state and action blocks
    are rows `2048 q + r` of the arrays and the table block is the table, then tile entry `y` is square entry `i`
    whenever `i = (16 q + y 0, y 1)`. -/
theorem tile_eq_square (s : Vec Ideal S2048x1000 .f32) (v : Vec Ideal S1000x128 .f32) (act : Vec Ideal S2048x128 .f32)
    (St : FVec Ideal S16384x1000 .f32) (Ac : FVec Ideal S16384x128 .f32) (Va : FVec Ideal S1000x128 .f32)
    (q : Nat) (hq : q ≤ 7)
    (hs : ∀ (r : Fin 2048) (k : Fin 1000) (r' : Fin 16384), r'.val = q * 2048 + r.val → s (ix2 r k) = St (ix2 r' k))
    (ha : ∀ (r : Fin 2048) (c : Fin 128) (r' : Fin 16384), r'.val = q * 2048 + r.val → act (ix2 r c) = Ac (ix2 r' c))
    (hv : ∀ (k : Fin 1000) (c : Fin 128), v (ix2 k c) = Va (ix2 k c))
    (y : S16x128.Idx) (i : S128x128.Idx) (hi0 : (i 0).val = q * 16 + (y 0).val) (hi1 : (i 1).val = (y 1).val) :
    k0_pay1 (F := Ideal) s v act y = ActionValue.square St Ac Va i := by
  obtain ⟨a, b, rfl⟩ : ∃ (a : Fin 16) (b : Fin 128), y = ix2 a b := ⟨y 0, y 1, eq_ix2 y⟩
  rw [tile_apply]
  unfold ActionValue.square ActionValue.rowValue ActionValue.qEntry
  have hrow : (ActionValue.rowOf (i 0) (i 1)).val = q * 2048 + (blockRow a b).val := by
    show (i 0).val * 128 + (i 1).val = q * 2048 + (a.val * 128 + b.val)
    have h0 : (i 0).val = q * 16 + a.val := hi0
    have h1 : (i 1).val = b.val := hi1
    rw [h0, h1]; ring
  refine Finset.sum_congr rfl fun c _ => ?_
  rw [ha (blockRow a b) c _ hrow]
  refine congrArg (Ac (ix2 (ActionValue.rowOf (i 0) (i 1)) c) * ·) ?_
  refine Finset.sum_congr rfl fun k _ => ?_
  rw [hs (blockRow a b) k _ hrow, hv k c]

variable (m : (ℓ : Loc nD τ sig) → Buf (Elt Ideal) ℓ)

/-- The three argument arrays of core `c`, at their literal types. -/
abbrev stateArr (c : Dev nD) : FVec Ideal S16384x1000 .f32 := m ((c : Thread nD τ).loc main_arg0)
abbrev actionArr (c : Dev nD) : FVec Ideal S16384x128 .f32 := m ((c : Thread nD τ).loc main_arg1)
abbrev valuesArr (c : Dev nD) : FVec Ideal S1000x128 .f32 := m ((c : Thread nD τ).loc main_arg2)

/-- The compact square of the argument arrays. -/
abbrev squareOf (c : Dev nD) : Buf (Elt Ideal) ((c : Thread nD τ).loc main_v0) :=
  ActionValue.square (stateArr m c) (actionArr m c) (valuesArr m c)

theorem hz : (![0, 0] : Fin 2 → Nat) = fun _ => 0 := funext fun a => by fin_cases a <;> rfl

/-- The block index maps over the grid: the state, action and output blocks move together down the rows, the
    table block never moves, nothing moves along the columns, and there are eight row positions. -/
theorem idx_facts : ∀ t : Fin cfg0.N,
    win0_0.index t (0 : Fin 2) = win0_3.index t (0 : Fin 2) ∧ win0_0.index t (1 : Fin 2) = 0
    ∧ win0_1.index t (0 : Fin 2) = win0_3.index t (0 : Fin 2) ∧ win0_1.index t (1 : Fin 2) = 0
    ∧ win0_2.index t (0 : Fin 2) = 0 ∧ win0_2.index t (1 : Fin 2) = 0
    ∧ win0_3.index t (1 : Fin 2) = 0 ∧ win0_3.index t (0 : Fin 2) ≤ 7 :=
  (by decide +kernel : ∀ t : Fin grid0.N, _)

/-- Each of the eight row positions of the output is some point's. -/
theorem idx_onto : ∀ q : Fin 8, ∃ t : Fin cfg0.N, win0_3.index t = ![q.val, 0] :=
  (by decide +kernel : ∀ q : Fin 8, ∃ t : Fin grid0.N, win0_3.index t = ![q.val, 0])

/-- The state block at point `t`: rows `2048 q + r` of the state array, `q` the block's row position. -/
theorem state_block (c : Dev nD) (t : Fin cfg0.N) (r : Fin 2048) (k : Fin 1000) (r' : Fin 16384)
    (hr : r'.val = win0_3.index t (0 : Fin 2) * 2048 + r.val) :
    (iblk m c 0 t : Vec Ideal S2048x1000 .f32) (ix2 r k) = stateArr m c (ix2 r' k) := by
  obtain ⟨e0, e1, -⟩ := idx_facts t
  unfold iblk
  rw [View.read_apply]
  show V m c main_arg0 _ = m (c.tc.loc main_arg0) _
  unfold V
  congr 1
  funext a
  apply Fin.ext
  match a with
  | ⟨0, _⟩ => show win0_0.index t (0 : Fin 2) * 2048 + 1 * r.val = r'.val; rw [e0, hr]; omega
  | ⟨1, _⟩ => show win0_0.index t (1 : Fin 2) * 1000 + 1 * k.val = k.val; rw [e1]; omega

/-- The action block at point `t`: the same rows of the action array. -/
theorem action_block (c : Dev nD) (t : Fin cfg0.N) (r : Fin 2048) (k : Fin 128) (r' : Fin 16384)
    (hr : r'.val = win0_3.index t (0 : Fin 2) * 2048 + r.val) :
    (iblk m c 1 t : Vec Ideal S2048x128 .f32) (ix2 r k) = actionArr m c (ix2 r' k) := by
  obtain ⟨-, -, e2, e3, -⟩ := idx_facts t
  unfold iblk
  rw [View.read_apply]
  show V m c main_arg1 _ = m (c.tc.loc main_arg1) _
  unfold V
  congr 1
  funext a
  apply Fin.ext
  match a with
  | ⟨0, _⟩ => show win0_1.index t (0 : Fin 2) * 2048 + 1 * r.val = r'.val; rw [e2, hr]; omega
  | ⟨1, _⟩ => show win0_1.index t (1 : Fin 2) * 128 + 1 * k.val = k.val; rw [e3]; omega

/-- The table block at every point is the whole value table. -/
theorem values_block (c : Dev nD) (t : Fin cfg0.N) (k : Fin 1000) (j : Fin 128) :
    (iblk m c 2 t : Vec Ideal S1000x128 .f32) (ix2 k j) = valuesArr m c (ix2 k j) := by
  obtain ⟨-, -, -, -, e4, e5, -⟩ := idx_facts t
  unfold iblk
  rw [View.read_apply]
  show V m c main_arg2 _ = m (c.tc.loc main_arg2) _
  unfold V
  congr 1
  funext a
  apply Fin.ext
  match a with
  | ⟨0, _⟩ => show win0_2.index t (0 : Fin 2) * 1000 + 1 * k.val = k.val; rw [e4]; omega
  | ⟨1, _⟩ => show win0_2.index t (1 : Fin 2) * 128 + 1 * j.val = j.val; rw [e5]; omega

/-- WHAT POINT `t` WRITES BACK is block `t` of the square. -/
theorem flushed_eq (c : Dev nD) (t : Fin cfg0.N) :
    (dats m 0 c).flushed 3 t = ((cfg0.win 3).blk t).view.read (Elt Ideal) (squareOf m c) := by
  show (cfg0.win 3).cut (grid0.coords t) ((dats m 0 c).after 3 t) = _
  rw [after0_3]
  unfold out0_3
  rw [View.canon_unit_zero hz]
  simp only [View.ld_unit_zero (S := S2048x1000) hz, View.ld_unit_zero (S := S1000x128) hz, View.ld_unit_zero (S := S2048x128) hz]
  obtain ⟨-, -, -, -, -, -, e6, e7⟩ := idx_facts t
  funext j
  rw [View.read_apply]
  refine tile_eq_square _ _ _ _ _ _ (win0_3.index t (0 : Fin 2)) e7
    (fun r k r' hr => state_block m c t r k r' hr) (fun r k r' hr => action_block m c t r k r' hr)
    (fun k j => values_block m c t k j) j _ ?_ ?_
  · show win0_3.index t (0 : Fin 2) * 16 + 1 * (j 0).val = _; omega
  · show win0_3.index t (1 : Fin 2) * 128 + 1 * (j 1).val = _; rw [e6]; omega

/-- An index of the square is in point `t`'s block iff each coordinate is in the block's range on its axis. -/
theorem mem_blk (t : Fin cfg0.N) (i : S128x128.Idx) :
    i ∈ ((cfg0.win 3).blk t).view.set ↔ ∀ a : Fin 2, win0_3.index t a * S16x128.size a ≤ (i a).val ∧ (i a).val < win0_3.index t a * S16x128.size a + S16x128.size a := by
  show i ∈ ((View.whole main_v0).slice (win0_3.rect t)).set ↔ _
  rw [View.set_slice_whole, Rect.mem_set_unit]
  exact Iff.rfl

/-- The eight tiles cover the square: line `i 0` lies in the tile at row position `i 0 / 16`. -/
theorem cover (i : S128x128.Idx) : ∃ t : Fin cfg0.N, (cfg0.win 3).flush t = true ∧ i ∈ ((cfg0.win 3).blk t).view.set := by
  have hi0 : (i 0).val < 128 := (i 0).isLt
  have hi1 : (i 1).val < 128 := (i 1).isLt
  obtain ⟨t, ht⟩ := idx_onto ⟨(i 0).val / 16, by omega⟩
  have q0 : win0_3.index t (0 : Fin 2) = (i 0).val / 16 := congrFun ht 0
  have q1 : win0_3.index t (1 : Fin 2) = 0 := congrFun ht 1
  refine ⟨t, flush0_3 t, ?_⟩
  rw [mem_blk]
  intro a
  match a with
  | ⟨0, _⟩ => show win0_3.index t (0 : Fin 2) * 16 ≤ (i 0).val ∧ (i 0).val < win0_3.index t (0 : Fin 2) * 16 + 16; omega
  | ⟨1, _⟩ => show win0_3.index t (1 : Fin 2) * 128 ≤ (i 1).val ∧ (i 1).val < win0_3.index t (1 : Fin 2) * 128 + 128; omega

/-- THE ARRAY after the region: the square of the argument arrays. -/
theorem final (c : Dev nD) : (dats m 0 c).arrAt 3 cfg0.N = squareOf m c :=
  (dats m 0 c).arrAt_eq_of_cover 3 (squareOf m c) (fun t _ => flushed_eq m c t) (cover)

end Cert.KernelIdeal.Blocks

end
-- ==== Proof.Result.lean ====
/-
  The idealized kernel's run, read: after the region the compact [128, 128] array holds the square of row values,
  and the one host line after it lays the square out row-major as the [16384, 1] result, which is the column of row
  values (position `r` of the column is entry `(r / 128, r % 128)` of the square, whose row is `r`).
-/
import proofs.«170311_g61091614818686_cont_9to1c4b_579_11_alg».proof.Proof.Blocks
import Idealize.ShloMosaic.Lib.StableHlo.Run

noncomputable section

namespace Cert.KernelIdeal.Result

open Cert.KernelIdeal Cert.KernelIdeal.Gen Cert.KernelIdeal.Blocks
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-- The result buffer is no array of the region: the lines after the region decide what it holds. -/
theorem result_mem_rest : main_v1 ∈ Pipeline.restRefs sig spec0 :=
  Pipeline.mem_restRefs_of main_v1 rfl (by decide)

/-- What the line after the region leaves in the result buffer: the column of row values. -/
theorem tail_eq (c : Dev nD) :
    Pipeline.afterTail₀ cfgs (dats m) 0 (V0 m) [hostOps1] c main_v1
      = ActionValue.column (stateArr m c) (actionArr m c) (valuesArr m c) := by
  unfold Pipeline.afterTail₀
  show StableHlo.after hostOps1 _ (Proc.devRef .tc main_v1) = _
  after_results
  funext i
  show shapeCast S16384x1 (Pipeline.withArrays spec0 c (V0 m c) (fun w => (dats m 0 c).arrAt w cfg0.N) (Proc.devRef .tc main_v0))
      shapeCasts_S128x128_S16384x1 i = _
  rw [show Pipeline.withArrays spec0 c (V0 m c) (fun w => (dats m 0 c).arrAt w cfg0.N) (Proc.devRef .tc main_v0) = squareOf m c from
    (Pipeline.withArrays_arr spec0 launch0.win.arr_inj c _ _ 3).trans (final m c)]
  have hi0 : (i 0).val < 16384 := (i 0).isLt
  have hi1 : (i 1).val < 1 := (i 1).isLt
  refine (shapeCast_apply (squareOf m c) shapeCasts_S128x128_S16384x1 i
    (ix2 ⟨(i 0).val / 128, by omega⟩ ⟨(i 0).val % 128, by omega⟩) ?_).trans ?_
  · show (S128x128.rowMajor (ix2 ⟨(i 0).val / 128, by omega⟩ ⟨(i 0).val % 128, by omega⟩)).val = (S16384x1.rowMajor i).val
    rw [Shape.rowMajor_val_two, Shape.rowMajor_val_two]
    show (i 0).val / 128 * 128 + (i 0).val % 128 = (i 0).val * 1 + (i 1).val
    omega
  · refine ActionValue.column_eq_square _ _ _ i _ ?_
    show (i 0).val / 128 * 128 + (i 0).val % 128 = (i 0).val
    omega

/-- THE RUN, READ: every weakly fair execution of the idealized kernel's program ends with the result buffer at the
    column of row values of the argument arrays, and the argument arrays as they were. -/
theorem run : θ_run defs (onTc (τ := τ) (main (F := Ideal))) ⟨m, fun _ => 0, ρ⟩ fun r => ∀ c : Dev nD,
      r.2.mem ((c.tc : Thread nD τ).loc main_v1) = ActionValue.column (stateArr m c) (actionArr m c) (valuesArr m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨((h c).2 main_v1 result_mem_rest).trans (tail_eq m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c)))⟩)
    (run_main m ρ)

end Cert.KernelIdeal.Result

end
-- ==== Proof.lean ====
/-
  The action-value lookup `out[r] = ∑ c, action[r, c] * (state[r] · values[:, c])`, kernel against reference, over
  the extended reals.

  The kernel walks the batch in eight blocks of 2048 rows. For a block it forms the table rows by one product into a
  zero accumulator, multiplies by the action block, and sums each row's 128 products; the 2048 row values go out as
  a [16, 128] tile of a compact [128, 128] square (entry `(a, b)` of the square is batch row `128 a + b`), and a
  reshape after the region lays the square out as the [16384, 1] result. The reference forms all table rows by one
  product, multiplies by the action array, sums over the 128 columns from a zero start and puts row `r`'s sum at
  `(r, 0)`.

  On the extended reals both are the same double sum, term for term and in the same order of factors: the narrowing
  of the product's operands is the identity, the product into zero and the host's product are the plain sum over the
  1000 contracted indices, and the two sums over the action columns differ only by the reference's zero start. No
  law that could fail at an infinity is used (nothing is distributed or cancelled), so the finiteness of the inputs
  is never opened.

  Modules: Spec (the row value, the column, the square, and that the square read row-major is the column), Body (the
  stored tile entry by entry), Blocks (each point's tile is its block of the square; the tiles cover it), Result (the
  reshape after the region, and the kernel's run read), RefValue (the reference read at an index).
-/
import proofs.«170311_g61091614818686_cont_9to1c4b_579_11_alg».proof.Defs
import proofs.«170311_g61091614818686_cont_9to1c4b_579_11_alg».proof.Proof.Gen.Kernel
import proofs.«170311_g61091614818686_cont_9to1c4b_579_11_alg».proof.Proof.Gen.Kernel.Skeleton
import proofs.«170311_g61091614818686_cont_9to1c4b_579_11_alg».proof.Proof.Gen.Kernel.Launch
import proofs.«170311_g61091614818686_cont_9to1c4b_579_11_alg».proof.Proof.Gen.Kernel.Points
import proofs.«170311_g61091614818686_cont_9to1c4b_579_11_alg».proof.Proof.Gen.Kernel.Frame
import proofs.«170311_g61091614818686_cont_9to1c4b_579_11_alg».proof.Proof.Gen.KernelIdeal
import proofs.«170311_g61091614818686_cont_9to1c4b_579_11_alg».proof.Proof.Gen.KernelIdeal.Skeleton
import proofs.«170311_g61091614818686_cont_9to1c4b_579_11_alg».proof.Proof.Gen.KernelIdeal.Launch
import proofs.«170311_g61091614818686_cont_9to1c4b_579_11_alg».proof.Proof.Gen.KernelIdeal.Points
import proofs.«170311_g61091614818686_cont_9to1c4b_579_11_alg».proof.Proof.Gen.KernelIdeal.Frame
import proofs.«170311_g61091614818686_cont_9to1c4b_579_11_alg».proof.Proof.Gen.ReferenceIdeal
import proofs.«170311_g61091614818686_cont_9to1c4b_579_11_alg».proof.Proof.Gen.ReferenceIdeal.Run
import proofs.«170311_g61091614818686_cont_9to1c4b_579_11_alg».proof.Proof.Gen.ReferenceIdeal.Read
import proofs.«170311_g61091614818686_cont_9to1c4b_579_11_alg».proof.Proof.Gen.Pre_finite_inputs
import proofs.«170311_g61091614818686_cont_9to1c4b_579_11_alg».proof.Proof.RefValue
import proofs.«170311_g61091614818686_cont_9to1c4b_579_11_alg».proof.Proof.Result
import Idealize.ShloMosaic.Adequacy
import Idealize.ShloMosaic.Init

noncomputable section

namespace Cert.Proof

open Idealize.ShloMosaic Idealize.SL.Sem

/-- The word-level kernel terminates, faults nowhere and leaves its arguments alone. -/
theorem frame_kernel : Cert.frame_Kernel := fun m ρ _ => Cert.Kernel.Gen.frame m ρ

/-- So does the kernel read over the extended reals. -/
theorem frame_kernel_ideal : Cert.frame_KernelIdeal := fun m ρ _ => Cert.KernelIdeal.Gen.frame m ρ

/-- The reference is five host operations; its run keeps the arguments. -/
theorem frame_reference : Cert.frame_ReferenceIdeal := fun m ρ _ =>
  (θ_run Cert.ReferenceIdeal.defs _ _).mono (fun _ h c => (h c).2) (Cert.ReferenceIdeal.Value.run (F := Ideal) m ρ)

/-- Both programs end with the column of row values of the (agreeing) argument arrays. -/
theorem algebraic : Cert.algebraic_KernelIdeal_ReferenceIdeal := by
  intro m ρ m' ρ' _ hagree
  refine ⟨fun c => ActionValue.column (Cert.KernelIdeal.Blocks.stateArr m c) (Cert.KernelIdeal.Blocks.actionArr m c)
    (Cert.KernelIdeal.Blocks.valuesArr m c), Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2]
  exact (Cert.ReferenceIdeal.Read.val_main_v3_eq _ _ _).trans (Cert.ReferenceIdeal.RefValue.ref_eq _ _ _)

theorem claim : Cert.Claim := ⟨Cert.Kernel.Gen.facts, Cert.KernelIdeal.Gen.facts, Cert.ReferenceIdeal.Gen.facts, Cert.Pre_finite_inputs.Gen.facts,
  frame_kernel, frame_kernel_ideal, frame_reference, trivial, algebraic⟩

end Cert.Proof

end
